-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S4096x1 : Shape := ⟨2, ![4096, 1]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : IVec S4096x2048 32) (main_arg2 : FVec F S4096x1 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4x2048x4096 : Shape := ⟨3, ![4, 2048, 4096]⟩
abbrev S4096x2048 : Shape := ⟨2, ![4096, 2048]⟩
abbrev S4096x1 : Shape := ⟨2, ![4096, 1]⟩
abbrev S4096x4096 : Shape := ⟨2, ![4096, 4096]⟩
abbrev S2048x4096 : Shape := ⟨2, ![2048, 4096]⟩
abbrev S_ : Shape := ⟨0, ![]⟩
abbrev S2048x1x4096 : Shape := ⟨3, ![2048, 1, 4096]⟩
abbrev S2048x2x4096 : Shape := ⟨3, ![2048, 2, 4096]⟩
abbrev S1x4096 : Shape := ⟨2, ![1, 4096]⟩
abbrev S8192x4096 : Shape := ⟨2, ![8192, 4096]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 34
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x1, .f32⟩
  | .hbm, ⟨3, _⟩ => ⟨S4096x4096, .f32⟩
  | .hbm, ⟨4, _⟩ => ⟨S2048x4096, .i32⟩
  | .hbm, ⟨5, _⟩ => ⟨S_, .i32⟩
  | .hbm, ⟨6, _⟩ => ⟨S2048x4096, .i32⟩
  | .hbm, ⟨7, _⟩ => ⟨S2048x4096, .i32⟩
  | .hbm, ⟨8, _⟩ => ⟨S_, .i32⟩
  | .hbm, ⟨9, _⟩ => ⟨S2048x4096, .i32⟩
  | .hbm, ⟨10, _⟩ => ⟨S2048x4096, .i32⟩
  | .hbm, ⟨11, _⟩ => ⟨S_, .i32⟩
  | .hbm, ⟨12, _⟩ => ⟨S2048x4096, .i32⟩
  | .hbm, ⟨13, _⟩ => ⟨S2048x4096, .i32⟩
  | .hbm, ⟨14, _⟩ => ⟨S2048x1x4096, .i32⟩
  | .hbm, ⟨15, _⟩ => ⟨S2048x1x4096, .i32⟩
  | .hbm, ⟨16, _⟩ => ⟨S2048x2x4096, .i32⟩
  | .hbm, ⟨17, _⟩ => ⟨S4096x4096, .i32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .bf16⟩
  | .hbm, ⟨31, _⟩ => ⟨S8192x4096, .f32⟩
  | .hbm, ⟨32, _⟩ => ⟨S8192x4096, .f32⟩
  | .hbm, ⟨33, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S4096x2048_S2048x4096_1_0 : S4096x2048.Transposes [1, 0] S2048x4096
  bcast_S_S2048x4096 : S_.BroadcastsInDim S2048x4096 (![] : Fin 0 → Fin S2048x4096.rank)
  bcast_S2048x4096_S2048x1x4096_0_2 : S2048x4096.BroadcastsInDim S2048x1x4096 (![0, 2] : Fin 2 → Fin S2048x1x4096.rank)
  concatenates_S2048x1x4096_S2048x1x4096_S2048x2x4096_d1 : Shape.Concatenates [S2048x1x4096, S2048x1x4096] S2048x2x4096 1
  shapeCasts_S2048x2x4096_S4096x4096 : S2048x2x4096.ShapeCasts S4096x4096
  bcast_S_S4096x4096 : S_.BroadcastsInDim S4096x4096 (![] : Fin 0 → Fin S4096x4096.rank)
  transposes_S4096x1_S1x4096_1_0 : S4096x1.Transposes [1, 0] S1x4096
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S8192x4096_S4x2048x4096 : S8192x4096.ShapeCasts S4x2048x4096
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v22) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S4096x1 : Shape := ⟨2, ![4096, 1]⟩
abbrev S4096x4096 : Shape := ⟨2, ![4096, 4096]⟩
abbrev S_ : Shape := ⟨0, ![]⟩
abbrev S4096x2048x1 : Shape := ⟨3, ![4096, 2048, 1]⟩
abbrev S4096x2048x2 : Shape := ⟨3, ![4096, 2048, 2]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x1, .f32⟩
  | .hbm, ⟨3, _⟩ => ⟨S4096x4096, .f32⟩
  | .hbm, ⟨4, _⟩ => ⟨S_, .i32⟩
  | .hbm, ⟨5, _⟩ => ⟨S4096x2048, .i32⟩
  | .hbm, ⟨6, _⟩ => ⟨S4096x2048, .i32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S4096x2048x1, .i32⟩
  | .hbm, ⟨14, _⟩ => ⟨S4096x2048x1, .i32⟩
  | .hbm, ⟨15, _⟩ => ⟨S4096x2048x2, .i32⟩
  | .hbm, ⟨16, _⟩ => ⟨S4096x4096, .i32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The result both programs compute, stated once over literal shapes.

  A packed word `p[o, k]` holds two 4-bit codes: input column `2k` reads the low nibble, column `2k + 1` the next one.
  The dequantized weight at (output row `o`, input column `i`) is `(code − 8) · scale[o] + 1 · residual[o, i]`, and the
  result at (b, s, o) is the inner product of `x[b, s, ·]` with row `o` of that weight matrix, over the extended reals.
-/
import Idealize.ShloMosaic.PureOps.Ideal
import Idealize.ShloMosaic.Lib.ValueIdx

noncomputable section

namespace Cert.Spec

open Idealize.ShloMosaic Idealize.ShloMosaic.ValueIdx

/-- The activations' shape [4, 2048, 4096] (also the result's). -/
abbrev SX : Shape := ⟨3, ![4, 2048, 4096]⟩
/-- The packed codes' shape [4096, 2048]. -/
abbrev SP : Shape := ⟨2, ![4096, 2048]⟩
/-- The per-row scales' shape [4096, 1]. -/
abbrev SS : Shape := ⟨2, ![4096, 1]⟩
/-- A square [4096, 4096] matrix: the residual, and the dequantized weight in either orientation. -/
abbrev SW : Shape := ⟨2, ![4096, 4096]⟩

/-- Half of an input column index: the packed word that holds its code. -/
abbrev half (i : Fin 4096) : Fin 2048 := ⟨i.val / 2, by have := i.isLt; omega⟩

/-- The 4-bit code of input column `i` in output row `o`: the low nibble of the packed word for an even column, the
    nibble above it for an odd one. -/
def code (p : SP.Idx → BitVec 32) (o i : Fin 4096) : BitVec 32 :=
  if i.val % 2 = 0 then IntOp.andi (p (ix2 o (half i))) 15#32
  else IntOp.andi (IntOp.shrsi .host (p (ix2 o (half i))) 4#32) 15#32

/-- The dequantized weight at (output row `o`, input column `i`): `(code − 8) · scale[o] + 1 · residual[o, i]`. -/
def weight (p : SP.Idx → BitVec 32) (s : SS.Idx → Ideal .f32) (r : SW.Idx → Ideal .f32) (o i : Fin 4096) : Ideal .f32 :=
  FloatOps.addf
    (FloatOps.mulf (FloatOps.subf (FloatOps.sitofp .f32 (code p o i)) (FloatOps.ofBits .f32 0x41000000#32)) (s (ix2 o 0)))
    (FloatOps.mulf (FloatOps.ofBits .f32 0x3F800000#32) (r (ix2 o i)))

/-- The result at (b, s, o): the sum over the 4096 input columns of `x[b, s, i] · weight[o, i]`. -/
def result (x : SX.Idx → Ideal .f32) (p : SP.Idx → BitVec 32) (s : SS.Idx → Ideal .f32) (r : SW.Idx → Ideal .f32) :
    SX.Idx → Ideal .f32 :=
  fun j => ∑ i : Fin 4096, x (ix3 (j 0) (j 1) i) * weight p s r (j 2) i

end Cert.Spec

end
-- ==== Proof.RefValue.lean ====
/-
  The reference computes the specified result.

  Its weight stage joins the low nibbles and the nibbles above them along a new last axis of extent 2 and flattens
  [4096, 2048, 2] to [4096, 4096], so column `i` of row `o` sits at last coordinate `i % 2` of packed word `i / 2`:
  the low nibble for an even column, the next nibble for an odd one. Converted, centred at 8, scaled by the row's scale
  and added to the residual, entry (o, i) is the specified weight; the final contraction over the 4096 input columns
  is the specified sum, term by term.
-/
import proofs.«420758_j9543417331949_3_alg».proof.Proof.Spec
import proofs.«420758_j9543417331949_3_alg».proof.Proof.Gen.ReferenceIdeal.Read
import Idealize.ShloMosaic.Lib.Pipeline.Value
import Idealize.ShloMosaic.Lib.ValueIdx

noncomputable section

namespace Cert.ReferenceIdeal.RefValue

open Idealize.ShloMosaic Idealize.ShloMosaic.ValueIdx Cert.ReferenceIdeal Cert.ReferenceIdeal.Read

/-- The scale's broadcast reads row `o`, column 0. -/
private theorem idx13_eq (o i : Fin 4096) : idx_main_v13 (ix2 o i) = ix2 o (0 : Fin 1) :=
  funext fun a => Fin.ext (by
    match a with
    | ⟨0, _⟩ => rfl
    | ⟨1, _⟩ => rfl)

/-- A rank-3 index with a unit last axis, read back through the broadcast that added the axis. -/
private theorem idx6_eq (o : Fin 4096) (k : Fin 2048) (z : Fin 1) : idx_main_v6 (ix3 o k z) = ix2 o k :=
  funext fun a => Fin.ext (by
    match a with
    | ⟨0, _⟩ => rfl
    | ⟨1, _⟩ => rfl)

/-- The same for the second joined piece. -/
private theorem idx7_eq (o : Fin 4096) (k : Fin 2048) (z : Fin 1) : idx_main_v7 (ix3 o k z) = ix2 o k :=
  funext fun a => Fin.ext (by
    match a with
    | ⟨0, _⟩ => rfl
    | ⟨1, _⟩ => rfl)

/-- An even column `i` sits at position `o * 4096 + i`, whose last coordinate in [4096, 2048, 2] is 0: it reads the
    first joined piece at `(o, i / 2, 0)`, the low nibble of the packed word. -/
private theorem v8_even (x1 : (⟨S4096x2048, .i32⟩ : BufTy).Contents (Elt Ideal)) (o i : Fin 4096) (h : i.val % 2 = 0) :
    val_main_v8 (F := Ideal) x1 (idx_main_v9 (ix2 o i)) = IntOp.andi (x1 (ix2 o (Cert.Spec.half i))) 15#32 := by
  have ho := o.isLt
  have hi := i.isLt
  unfold val_main_v8
  rw [concatenate_pair_apply_left (t := S4096x2048x2) (2 : Fin 3) (val_main_v6 (F := Ideal) x1) (val_main_v7 (F := Ideal) x1)
    _ (idx_main_v9 (ix2 o i)) rfl (ix3 o (Cert.Spec.half i) (0 : Fin 1))
    (fun b => by
      match b with
      | ⟨0, _⟩ => show o.val = (o.val * 4096 + i.val) / 4096; omega
      | ⟨1, _⟩ => show i.val / 2 = (o.val * 4096 + i.val) / 2 % 2048; omega
      | ⟨2, _⟩ => show 0 = (o.val * 4096 + i.val) % 2; omega)]
  rw [val_main_v6_apply, val_main_v1_apply, val_main_v0_apply, val_main_c_apply, idx6_eq]

/-- An odd column's last coordinate is 1, past the first piece's unit extent: it reads the second joined piece at
    `(o, i / 2, 0)`, the nibble above the low one. -/
private theorem v8_odd (x1 : (⟨S4096x2048, .i32⟩ : BufTy).Contents (Elt Ideal)) (o i : Fin 4096) (h : ¬ i.val % 2 = 0) :
    val_main_v8 (F := Ideal) x1 (idx_main_v9 (ix2 o i))
      = IntOp.andi (IntOp.shrsi .host (x1 (ix2 o (Cert.Spec.half i))) 4#32) 15#32 := by
  have ho := o.isLt
  have hi := i.isLt
  unfold val_main_v8
  rw [concatenate_pair_apply_right (t := S4096x2048x2) (2 : Fin 3) (val_main_v6 (F := Ideal) x1) (val_main_v7 (F := Ideal) x1)
    _ (idx_main_v9 (ix2 o i)) rfl rfl (ix3 o (Cert.Spec.half i) (0 : Fin 1))
    (fun b hb => by
      match b with
      | ⟨0, _⟩ => show o.val = (o.val * 4096 + i.val) / 4096; omega
      | ⟨1, _⟩ => show i.val / 2 = (o.val * 4096 + i.val) / 2 % 2048; omega
      | ⟨2, _⟩ => exact absurd rfl hb)
    (by show 0 + 1 = (o.val * 4096 + i.val) % 2; omega)]
  rw [val_main_v7_apply, val_main_v5_apply, val_main_v3_apply, val_main_v2_apply, val_main_c_0_apply,
    val_main_v4_apply, val_main_c_1_apply, idx7_eq]

theorem weight_eq (x1 : (⟨S4096x2048, .i32⟩ : BufTy).Contents (Elt Ideal)) (x2 : (⟨S4096x1, .f32⟩ : BufTy).Contents (Elt Ideal))
    (x3 : (⟨S4096x4096, .f32⟩ : BufTy).Contents (Elt Ideal)) (o i : Fin 4096) :
    val_main_v17 (F := Ideal) x1 x2 x3 (ix2 o i) = Cert.Spec.weight x1 x2 x3 o i := by
  rw [val_main_v17_apply, val_main_v14_apply, val_main_v16_apply, val_main_v12_apply, val_main_v13_apply,
    val_main_v15_apply, val_main_cst_2_apply, val_main_v10_apply, val_main_v11_apply, val_main_cst_apply,
    val_main_v9_apply, idx13_eq]
  unfold Cert.Spec.weight Cert.Spec.code
  by_cases h : i.val % 2 = 0
  · rw [if_pos h, v8_even x1 o i h]
  · rw [if_neg h, v8_odd x1 o i h]

theorem result_eq (x0 : (⟨S4x2048x4096, .f32⟩ : BufTy).Contents (Elt Ideal)) (x1 : (⟨S4096x2048, .i32⟩ : BufTy).Contents (Elt Ideal))
    (x2 : (⟨S4096x1, .f32⟩ : BufTy).Contents (Elt Ideal)) (x3 : (⟨S4096x4096, .f32⟩ : BufTy).Contents (Elt Ideal)) :
    val_main_v18 (F := Ideal) x0 x1 x2 x3 = Cert.Spec.result x0 x1 x2 x3 := by
  funext j
  rw [val_main_v18_apply]
  unfold Cert.Spec.result
  refine Finset.sum_congr rfl fun k _ => ?_
  -- the left operand is read at (j 0, j 1, k), the weight stage at (j 2, k)
  have el : lidx_main_v18 j k = ix3 (j 0) (j 1) k :=
    funext fun a => Fin.ext (by
      match a with
      | ⟨0, _⟩ => rfl
      | ⟨1, _⟩ => rfl
      | ⟨2, _⟩ => rfl)
  have er : ridx_main_v18 j k = ix2 (j 2 : Fin 4096) k :=
    funext fun a => Fin.ext (by
      match a with
      | ⟨0, _⟩ => rfl
      | ⟨1, _⟩ => rfl)
  have hw : val_main_v17 (F := Ideal) x1 x2 x3 (ridx_main_v18 j k) = Cert.Spec.weight x1 x2 x3 (j 2) k := by
    rw [er]; exact weight_eq x1 x2 x3 (j 2) k
  exact congrArg₂ (· * ·) (congrArg x0 el) hw

end Cert.ReferenceIdeal.RefValue

end
-- ==== Proof.Body.lean ====
/-
  What one grid point leaves in the output block, as a value.

  The kernel body loads the x block (1024 × 512) and the weight block (512 × 2048), and stores
  `acc + x · w` into the output block (1024 × 2048), where `acc` is the zero block at the first step of a reduction run
  (the body has just stored it and reads it back) and the block's previous contents at the later steps.
  At the extended reals the stored entry (p, q) is `acc[p, q] + Σ_l x[p, l] · w[l, q]`.
-/
import proofs.«420758_j9543417331949_3_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem

namespace Cert.KernelIdeal.BodyValue

open Cert.KernelIdeal Cert.KernelIdeal.Gen Idealize.ShloMosaic.ValueIdx

section AnyValues
variable {F : FTy → Type} [FloatOps F]

theorem zero_offsets : (![0, 0] : Fin 2 → Nat) = fun _ => 0 := funext fun a => by fin_cases a <;> rfl

/-- A later step of a reduction run: the block held `xo`; the one store leaves `xo + x · w`. -/
theorem out_later (c : Dev nD) (i : grid0.Coords) (a3 : Memref sig .tc .vmem S1024x512 .f32) (h3 : a3.IsWhole)
    (a4 : Memref sig .tc .vmem S512x2048 .bf16) (h4 : a4.IsWhole) (a5 : Memref sig .tc .vmem S1024x2048 .f32) (h5 : a5.IsWhole)
    (hc : ¬cond0_0 i) (x0 : Vec F S1024x512 .f32) (x1 : Vec F S512x2048 .bf16) (xo : Vec F S1024x2048 .f32) :
    out0_B_2 c i a3 h3 a4 h4 a5 h5 hc x0 x1 xo = k0_pay2 x0 xo x1 := by
  unfold out0_B_2
  rw [View.read_writes_eq_canon _ _ _ (cover0_B_2 c i a3 h3 a4 h4 a5 h5 hc x0 x1 xo)]
  unfold kernelRun0_B
  dsimp only
  sl_unfold_words
  rw [View.canon_unit_zero zero_offsets]
  simp only [View.readAt_eq_ld, h3.read_unread, h4.read_unread, h5.read_unread,
    View.ld_unit_zero (S := S1024x512) zero_offsets, View.ld_unit_zero (S := S512x2048) zero_offsets,
    View.ld_unit_zero (S := S1024x2048) zero_offsets]

/-- The first step of a reduction run: the body stores the zero block, reads it back, and leaves `0 + x · w`. -/
theorem out_first (c : Dev nD) (i : grid0.Coords) (a3 : Memref sig .tc .vmem S1024x512 .f32) (h3 : a3.IsWhole)
    (a4 : Memref sig .tc .vmem S512x2048 .bf16) (h4 : a4.IsWhole) (a5 : Memref sig .tc .vmem S1024x2048 .f32) (h5 : a5.IsWhole)
    (hc : cond0_0 i) (x0 : Vec F S1024x512 .f32) (x1 : Vec F S512x2048 .bf16) :
    out0_A_2 c i a3 h3 a4 h4 a5 h5 hc x0 x1 = k0_pay2 x0 (k0_pay1 (F := F)) x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1024x2048) zero_offsets]
  simp only [View.readAt_eq_ld, h3.read_unread, h4.read_unread, View.readCov_unit_zero (S := S1024x2048) _ zero_offsets,
    View.ld_unit_zero (S := S1024x512) zero_offsets, View.ld_unit_zero (S := S512x2048) zero_offsets,
    View.ld_unit_zero (S := S1024x2048) zero_offsets]

end AnyValues

/-! ## The stored block, entry by entry, over the extended reals -/

/-- The matrix product's left index at output (p, q) and contraction position k is (p, k): row from the output, -/
theorem lhs_row (j : S1024x2048.Idx) (q : dot_S1024x512_S512x2048_S1024x2048_1_0_0_1_n_n.contr.Idx) :
    (dot_S1024x512_S512x2048_S1024x2048_1_0_0_1_n_n.lhsIdx j q 0).val = (j 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
/-- column the contraction position; -/
theorem lhs_col (j : S1024x2048.Idx) (q : dot_S1024x512_S512x2048_S1024x2048_1_0_0_1_n_n.contr.Idx) :
    (dot_S1024x512_S512x2048_S1024x2048_1_0_0_1_n_n.lhsIdx j q 1).val = (q ⟨0, by decide⟩).val :=
  dot_S1024x512_S512x2048_S1024x2048_1_0_0_1_n_n.lhsIdx_val_of_single rfl j q
/-- the right index is (k, q): row the contraction position, -/
theorem rhs_row (j : S1024x2048.Idx) (q : dot_S1024x512_S512x2048_S1024x2048_1_0_0_1_n_n.contr.Idx) :
    (dot_S1024x512_S512x2048_S1024x2048_1_0_0_1_n_n.rhsIdx j q 0).val = (q ⟨0, by decide⟩).val :=
  dot_S1024x512_S512x2048_S1024x2048_1_0_0_1_n_n.rhsIdx_val_of_single rfl j q
/-- column from the output. -/
theorem rhs_col (j : S1024x2048.Idx) (q : dot_S1024x512_S512x2048_S1024x2048_1_0_0_1_n_n.contr.Idx) :
    (dot_S1024x512_S512x2048_S1024x2048_1_0_0_1_n_n.rhsIdx j q 1).val = (j 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The block product at (p, q) is the sum over the 512 contraction positions of `x[p, l] · w[l, q]`. -/
theorem product_apply (x0 : FVec Ideal S1024x512 .bf16) (x1 : FVec Ideal S512x2048 .bf16) (p : Fin 1024) (q : Fin 2048) :
    FloatOps.matmul dot_S1024x512_S512x2048_S1024x2048_1_0_0_1_n_n none x0 x1 (constant (F := Ideal) S1024x2048 .f32 0x00000000#32) (ix2 p q)
      = ∑ l : Fin 512, x0 (ix2 p l) * x1 (ix2 l q) := by
  rw [Ideal.matmul_constant_zero_apply, ← Equiv.sum_comp (ValueIdx.contrEquiv1 dot_S1024x512_S512x2048_S1024x2048_1_0_0_1_n_n 512 rfl rfl).symm]
  refine Finset.sum_congr rfl fun k _ => ?_
  have hk := ValueIdx.contrEquiv1_symm_val dot_S1024x512_S512x2048_S1024x2048_1_0_0_1_n_n 512 rfl rfl k
  have el : dot_S1024x512_S512x2048_S1024x2048_1_0_0_1_n_n.lhsIdx (ix2 p q) ((ValueIdx.contrEquiv1 dot_S1024x512_S512x2048_S1024x2048_1_0_0_1_n_n 512 rfl rfl).symm k) = ix2 p k := funext fun a => Fin.ext (by
    match a with
    | ⟨0, _⟩ => exact lhs_row _ _
    | ⟨1, _⟩ => exact (lhs_col _ _).trans hk)
  have er : dot_S1024x512_S512x2048_S1024x2048_1_0_0_1_n_n.rhsIdx (ix2 p q) ((ValueIdx.contrEquiv1 dot_S1024x512_S512x2048_S1024x2048_1_0_0_1_n_n 512 rfl rfl).symm k) = ix2 k q := funext fun a => Fin.ext (by
    match a with
    | ⟨0, _⟩ => exact (rhs_row _ _).trans hk
    | ⟨1, _⟩ => exact rhs_col _ _)
  rw [el, er]

/-- The stored block at (p, q): the accumulator there plus the block product there. -/
theorem step_apply (x0 : Vec Ideal S1024x512 .f32) (acc : Vec Ideal S1024x2048 .f32) (x1 : Vec Ideal S512x2048 .bf16)
    (p : Fin 1024) (q : Fin 2048) :
    k0_pay2 (F := Ideal) x0 acc x1 (ix2 p q) = acc (ix2 p q) + ∑ l : Fin 512, x0 (ix2 p l) * x1 (ix2 l q) := by
  unfold k0_pay2
  simp only [shapeCast_self]
  refine (addf_apply _ _ _).trans ?_
  congr 1
  exact product_apply _ _ p q

/-- The zero block is zero everywhere. -/
theorem zero_apply (j : S1024x2048.Idx) : k0_pay1 (F := Ideal) j = 0 := by
  unfold k0_pay1
  show Ideal.ofBits .f32 0x00000000#32 = 0
  exact Ideal.ofBits_zero_f32

end Cert.KernelIdeal.BodyValue

end
-- ==== Proof.PartialSums.lean ====
/-
  A sum over `Fin N` taken a stretch at a time.

  Extend `f : Fin N → M` by zero to the naturals. The sum over the first `a + b` positions is the sum over the first `a`
  plus the `b` terms that follow, and the sum over the first `N` positions is the whole sum over `Fin N`. Only the laws of a
  commutative additive monoid are used, so this holds on the extended reals as it stands.
-/
import Mathlib.Algebra.BigOperators.Fin

namespace Cert.Spec

open Finset

/-- `f` extended by zero past its domain. -/
def extZero {M : Type*} [Zero M] {N : ℕ} (f : Fin N → M) (n : ℕ) : M := if h : n < N then f ⟨n, h⟩ else 0

theorem extZero_of_lt {M : Type*} [Zero M] {N : ℕ} (f : Fin N → M) (n : ℕ) (h : n < N) : extZero f n = f ⟨n, h⟩ :=
  dif_pos h

/-- The first `a + b` terms are the first `a` and then the next `b`. -/
theorem sum_range_stretch {M : Type*} [AddCommMonoid M] {N : ℕ} (f : Fin N → M) (a b : ℕ) (h : a + b ≤ N) :
    ∑ n ∈ range (a + b), extZero f n
      = ∑ n ∈ range a, extZero f n + ∑ l : Fin b, f ⟨a + l.val, by have := l.isLt; omega⟩ := by
  rw [Finset.sum_range_add]
  congr 1
  rw [← Fin.sum_univ_eq_sum_range (fun l => extZero f (a + l)) b]
  refine Finset.sum_congr rfl fun l _ => ?_
  exact extZero_of_lt f _ _

/-- All `N` terms are the whole sum. -/
theorem sum_range_all {M : Type*} [AddCommMonoid M] {N : ℕ} (f : Fin N → M) :
    ∑ n ∈ range N, extZero f n = ∑ i : Fin N, f i := by
  rw [← Fin.sum_univ_eq_sum_range (fun n => extZero f n) N]
  refine Finset.sum_congr rfl fun i _ => ?_
  exact extZero_of_lt f _ i.isLt

end Cert.Spec
-- ==== Proof.Accum.lean ====
/-
  The output array of the blocked matrix product, read off the run point by point.

  The grid is 8 × 2 × 8: point `t` works on row block `t / 16` (1024 rows), column block `t / 8 % 2` (2048 columns) and
  contraction block `t % 8` (512 positions), the contraction block moving fastest. The output block stays in place over the
  8 consecutive points of one (row block, column block) pair: it is zeroed at the first, each point adds its partial product,
  and it is written back after the last. So after point `t` the block holds, at (p, q), the sum over the first
  `512 · (t % 8 + 1)` contraction positions of `x[row, k] · w[k, col]`; after the eighth point that is the whole inner product,
  and the blocks written back tile the [8192, 4096] array.
-/
import proofs.«420758_j9543417331949_3_alg».proof.Proof.Body
import proofs.«420758_j9543417331949_3_alg».proof.Proof.PartialSums
import proofs.«420758_j9543417331949_3_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.AccValue

open Cert.KernelIdeal Cert.KernelIdeal.Gen Cert.KernelIdeal.BodyValue Idealize.ShloMosaic.ValueIdx

variable (m : (ℓ : Loc nD τ sig) → Buf (Elt Ideal) ℓ)

/-- The activations as the region finds them: [8192, 4096]. -/
abbrev xarr (c : Dev nD) : Vec Ideal S8192x4096 .f32 := V m c main_v22
/-- The weight as the region finds it: [4096, 4096], indexed (contraction position, output column). -/
abbrev warr (c : Dev nD) : Vec Ideal S4096x4096 .bf16 := V m c main_v21
/-- The x block of point `t`. -/
abbrev xblk (c : Dev nD) (t : Fin cfg0.N) : Vec Ideal S1024x512 .f32 := iblk m c 0 t
/-- The weight block of point `t`. -/
abbrev wblk (c : Dev nD) (t : Fin cfg0.N) : Vec Ideal S512x2048 .bf16 := iblk m c 1 t

/-- The array row under row `p` of point `n`'s blocks, -/
def rowOf (n : ℕ) (hn : n < 128) (p : Fin 1024) : Fin 8192 := ⟨1024 * (n / 16) + p.val, by have := p.isLt; omega⟩
/-- the array column under column `q`, -/
def colOf (n : ℕ) (hn : n < 128) (q : Fin 2048) : Fin 4096 := ⟨2048 * (n / 8 % 2) + q.val, by have := q.isLt; omega⟩
/-- and the contraction position under position `l`. -/
def posOf (n : ℕ) (hn : n < 128) (l : Fin 512) : Fin 4096 := ⟨512 * (n % 8) + l.val, by have := l.isLt; omega⟩

/-- The block index maps in closed form, decided over the 128 points. -/
theorem idx_facts : ∀ t : Fin cfg0.N, win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = t.val / 16 ∧ win0_2.index t (1 : Fin 2) = t.val / 8 % 2 :=
  (by decide +kernel : ∀ t : Fin grid0.N, _)

/-- The x block read at (p, l) is the array at (row, position). -/
theorem xblk_apply (c : Dev nD) (t : Fin cfg0.N) (hn : t.val < 128) (p : Fin 1024) (l : Fin 512) :
    xblk m c t (ix2 p l) = xarr m c (ix2 (rowOf t.val hn p) (posOf t.val hn l)) := by
  obtain ⟨h0, h1, -, -, -, -⟩ := idx_facts t
  show iblk m c 0 t (ix2 p l) = V m c main_v22 _
  unfold iblk
  rw [View.read_apply]
  show V m c main_v22 _ = V m c main_v22 _
  congr 1
  funext a
  apply Fin.ext
  match a with
  | ⟨0, _⟩ => show win0_0.index t (0 : Fin 2) * 1024 + 1 * p.val = 1024 * (t.val / 16) + p.val; rw [h0]; omega
  | ⟨1, _⟩ => show win0_0.index t (1 : Fin 2) * 512 + 1 * l.val = 512 * (t.val % 8) + l.val; rw [h1]; omega

/-- The weight block read at (l, q) is the array at (position, column). -/
theorem wblk_apply (c : Dev nD) (t : Fin cfg0.N) (hn : t.val < 128) (l : Fin 512) (q : Fin 2048) :
    wblk m c t (ix2 l q) = warr m c (ix2 (posOf t.val hn l) (colOf t.val hn q)) := by
  obtain ⟨-, -, h0, h1, -, -⟩ := idx_facts t
  show iblk m c 1 t (ix2 l q) = V m c main_v21 _
  unfold iblk
  rw [View.read_apply]
  show V m c main_v21 _ = V m c main_v21 _
  congr 1
  funext a
  apply Fin.ext
  match a with
  | ⟨0, _⟩ => show win0_1.index t (0 : Fin 2) * 512 + 1 * l.val = 512 * (t.val % 8) + l.val; rw [h0]; omega
  | ⟨1, _⟩ => show win0_1.index t (1 : Fin 2) * 2048 + 1 * q.val = 2048 * (t.val / 8 % 2) + q.val; rw [h1]; omega

/-- One term of the inner product of array row `r` with array column `o`. -/
def term (c : Dev nD) (r : Fin 8192) (o : Fin 4096) (k : Fin 4096) : EReal := xarr m c (ix2 r k) * warr m c (ix2 k o)

/-- The partial product of point `t` at (p, q) is the stretch of 512 terms at the point's contraction block. -/
theorem partial_eq (c : Dev nD) (t : Fin cfg0.N) (hn : t.val < 128) (p : Fin 1024) (q : Fin 2048) (a : ℕ) (ha : a = 512 * (t.val % 8)) :
    ∑ l : Fin 512, xblk m c t (ix2 p l) * wblk m c t (ix2 l q)
      = ∑ l : Fin 512, term m c (rowOf t.val hn p) (colOf t.val hn q) ⟨a + l.val, by have := l.isLt; omega⟩ := by
  refine Finset.sum_congr rfl fun l _ => ?_
  rw [xblk_apply m c t hn p l, wblk_apply m c t hn l q]
  have e : posOf t.val hn l = ⟨a + l.val, by have := l.isLt; omega⟩ := Fin.ext (by show 512 * (t.val % 8) + l.val = a + l.val; omega)
  rw [e]
  rfl

/-- After point `n` the output block holds, at (p, q), the first `512 · (n % 8 + 1)` terms of the inner product. -/
theorem outsAt_apply (c : Dev nD) : ∀ (n : ℕ) (h : n < cfg0.N) (hn : n < 128) (p : Fin 1024) (q : Fin 2048),
    (outsAt0 m c n h : Vec Ideal S1024x2048 .f32) (ix2 p q)
      = ∑ k ∈ Finset.range (512 * (n % 8) + 512), Cert.Spec.extZero (term m c (rowOf n hn p) (colOf n hn q)) k := by
  intro n
  induction n with
  | zero =>
    intro h hn p q
    rw [outsAt0_A m c ⟨0, h⟩ rfl, out_first]
    refine (step_apply (xblk m c ⟨0, h⟩) _ (wblk m c ⟨0, h⟩) p q).trans ?_
    rw [zero_apply, zero_add, partial_eq m c ⟨0, h⟩ hn p q 0 rfl]
    rw [show 512 * (0 % 8) + 512 = 0 + 512 from rfl, Cert.Spec.sum_range_stretch _ 0 512 (by norm_num), Finset.range_zero, Finset.sum_empty, zero_add]
  | succ n ih =>
    intro h hn p q
    by_cases h0 : (n + 1) % 8 = 0
    · rw [outsAt0_A m c ⟨n + 1, h⟩ h0, out_first]
      refine (step_apply (xblk m c ⟨n + 1, h⟩) _ (wblk m c ⟨n + 1, h⟩) p q).trans ?_
      rw [zero_apply, zero_add, partial_eq m c ⟨n + 1, h⟩ hn p q 0 (by show 0 = 512 * ((n + 1) % 8); omega)]
      rw [show 512 * ((n + 1) % 8) + 512 = 0 + 512 from by omega, Cert.Spec.sum_range_stretch _ 0 512 (by norm_num), Finset.range_zero, Finset.sum_empty, zero_add]
    · have hn' : n < 128 := by omega
      rw [outsAt0_B m c ⟨n + 1, h⟩ h0, out_later]
      refine (step_apply (xblk m c ⟨n + 1, h⟩) _ (wblk m c ⟨n + 1, h⟩) p q).trans ?_
      show (outsAt0 m c n _ : Vec Ideal S1024x2048 .f32) (ix2 p q) + _ = _
      rw [ih (Nat.lt_of_succ_lt h) hn' p q, partial_eq m c ⟨n + 1, h⟩ hn p q (512 * (n % 8) + 512) (by show 512 * (n % 8) + 512 = 512 * ((n + 1) % 8); omega)]
      have er : rowOf n hn' p = rowOf (n + 1) hn p := Fin.ext (by show 1024 * (n / 16) + p.val = 1024 * ((n + 1) / 16) + p.val; omega)
      have ec : colOf n hn' q = colOf (n + 1) hn q := Fin.ext (by show 2048 * (n / 8 % 2) + q.val = 2048 * ((n + 1) / 8 % 2) + q.val; omega)
      rw [er, ec, show 512 * ((n + 1) % 8) + 512 = (512 * (n % 8) + 512) + 512 from by omega,
        Cert.Spec.sum_range_stretch _ (512 * (n % 8) + 512) 512 (by omega)]

end Cert.KernelIdeal.AccValue

end
-- ==== Proof.Output.lean ====
/-
  The kernel's result array and its run.

  Every (row block, column block) pair's eight points end with the whole inner products in the output block, which is
  then written back; the 16 blocks written back tile the [8192, 4096] product array, so that array ends holding
  `Σ_k x[r, k] · w[k, o]` at (r, o). The one host operation after the region reshapes it to [4, 2048, 4096]:
  row r is (r / 2048, r % 2048).
-/
import proofs.«420758_j9543417331949_3_alg».proof.Proof.Accum
import Idealize.ShloMosaic.Lib.StableHlo.Run

noncomputable section

open Idealize.ShloMosaic Idealize.ShloMosaic.TcCoe Idealize.SL.Sem
open Idealize.ShloMosaic.Pipeline (Dat)

namespace Cert.KernelIdeal.OutValue

open Cert.KernelIdeal Cert.KernelIdeal.Gen Cert.KernelIdeal.AccValue Idealize.ShloMosaic.ValueIdx

variable (m : (ℓ : Loc nD τ sig) → Buf (Elt Ideal) ℓ) (ρ : Dev nD → PrngReg)

/-- The product array: at (r, o) the whole inner product of array row `r` with array column `o`. -/
def prodArr (c : Dev nD) : Vec Ideal S8192x4096 .f32 :=
  fun j => ∑ k : Fin 4096, term m c ⟨(j 0).val, (j 0).isLt⟩ ⟨(j 1).val, (j 1).isLt⟩ k

theorem prodArr_apply (c : Dev nD) (r : Fin 8192) (o : Fin 4096) : prodArr m c (ix2 r o) = ∑ k : Fin 4096, term m c r o k := rfl

/-- After the eighth point of a run the block holds the whole inner products. -/
theorem last_apply (c : Dev nD) (t : Fin cfg0.N) (hn : t.val < 128) (h7 : t.val % 8 = 7) (p : Fin 1024) (q : Fin 2048) :
    (outsAt0 m c t.val t.isLt : Vec Ideal S1024x2048 .f32) (ix2 p q) = prodArr m c (ix2 (rowOf t.val hn p) (colOf t.val hn q)) := by
  rw [outsAt_apply m c t.val t.isLt hn p q, prodArr_apply, show 512 * (t.val % 8) + 512 = 4096 from by omega]
  exact Cert.Spec.sum_range_all _

/-- What a writing point writes back is its block of the product array. -/
theorem flushed_eq (c : Dev nD) (t : Fin cfg0.N) (hf : (cfg0.win 2).flush t = true) :
    (dats m 0 c).flushed 2 t = ((cfg0.win 2).blk t).view.read (Elt Ideal) (prodArr m c) := by
  have h7 : t.val % 8 = 7 := (flush0_2 t).mp hf
  have hn : t.val < 128 := lt_of_lt_of_eq t.isLt N_0
  obtain ⟨-, -, -, -, e0, e1⟩ := idx_facts t
  show (cfg0.win 2).cut (grid0.coords t) ((dats m 0 c).after 2 t) = _
  rw [after0_2]
  funext j
  show (outsAt0 m c t.val t.isLt : Vec Ideal S1024x2048 .f32) j = prodArr m c (((cfg0.win 2).blk t).view.emb j)
  have hj : (j : S1024x2048.Idx) = ix2 (⟨(j 0).val, (j 0).isLt⟩ : Fin 1024) (⟨(j 1).val, (j 1).isLt⟩ : Fin 2048) :=
    funext fun a => Fin.ext (by
      match a with
      | ⟨0, _⟩ => rfl
      | ⟨1, _⟩ => rfl)
  refine (congrArg (outsAt0 m c t.val t.isLt : Vec Ideal S1024x2048 .f32) hj).trans ((last_apply m c t hn h7 _ _).trans (congrArg (prodArr m c) ?_))
  funext a
  apply Fin.ext
  match a with
  | ⟨0, _⟩ => show 1024 * (t.val / 16) + (j 0).val = win0_2.index t (0 : Fin 2) * 1024 + 1 * (j 0).val; rw [e0]; omega
  | ⟨1, _⟩ => show 2048 * (t.val / 8 % 2) + (j 1).val = win0_2.index t (1 : Fin 2) * 2048 + 1 * (j 1).val; rw [e1]; omega

/-- Every index of the product array lies in the block of some writing point. -/
theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  obtain ⟨n, hndef⟩ : ∃ n : ℕ, n = ((i 0).val / 1024 * 2 + (i 1).val / 2048) * 8 + 7 := ⟨_, rfl⟩
  have hnN : n < cfg0.N := by rw [show cfg0.N = 128 from N_0]; omega
  obtain ⟨-, -, -, -, e0, e1⟩ := idx_facts ⟨n, hnN⟩
  have e0' : win0_2.index ⟨n, hnN⟩ (0 : Fin 2) = n / 16 := e0
  have e1' : win0_2.index ⟨n, hnN⟩ (1 : Fin 2) = n / 8 % 2 := e1
  refine ⟨⟨n, hnN⟩, (flush0_2 _).mpr (by show n % 8 = 7; omega), ?_⟩
  show i ∈ ((View.whole main_v23).slice (win0_2.rect ⟨n, hnN⟩)).set
  rw [View.set_slice_whole, Rect.mem_set_unit]
  intro a
  match a with
  | ⟨0, _⟩ =>
    show win0_2.index ⟨n, hnN⟩ (0 : Fin 2) * 1024 ≤ (i 0).val ∧ (i 0).val < win0_2.index ⟨n, hnN⟩ (0 : Fin 2) * 1024 + 1024
    rw [e0']; omega
  | ⟨1, _⟩ =>
    show win0_2.index ⟨n, hnN⟩ (1 : Fin 2) * 2048 ≤ (i 1).val ∧ (i 1).val < win0_2.index ⟨n, hnN⟩ (1 : Fin 2) * 2048 + 2048
    rw [e1']; omega

/-- So the product array ends holding the inner products. -/
theorem final (c : Dev nD) : (dats m 0 c).arrAt 2 cfg0.N = prodArr m c :=
  (dats m 0 c).arrAt_eq_of_cover 2 (prodArr m c) (flushed_eq m c) cover

/-- The reshape after the region leaves the result as the product array re-laid to [4, 2048, 4096]. -/
theorem tail_eq (c : Dev nD) : Pipeline.afterTail₀ cfgs (dats m) 0 (V0 m) [hostOps1] c main_v24
    = shapeCast S4x2048x4096 (prodArr m c) shapeCasts_S8192x4096_S4x2048x4096 := by
  unfold Pipeline.afterTail₀
  show StableHlo.after hostOps1 _ (Proc.devRef .tc main_v24) = _
  after_results
  have e : Pipeline.withArrays (cfgs 0).spec c (V0 m c) (fun w => (dats m 0 c).arrAt w (cfgs 0).N) (Proc.devRef .tc main_v23) = prodArr m c :=
    (Pipeline.withArrays_arr spec0 launch0.win.arr_inj c (V0 m c) (fun w => (dats m 0 c).arrAt w (cfgs 0).N) 2).trans (final m c)
  rw [e]
  rfl

end Cert.KernelIdeal.OutValue

end
-- ==== Proof.HostValue.lean ====
import proofs.«420758_j9543417331949_3_alg».proof.Proof.Spec
import proofs.«420758_j9543417331949_3_alg».proof.Proof.Gen.KernelIdeal.Frame
import Idealize.ShloMosaic.Lib.Pipeline.Value
import Idealize.ShloMosaic.Lib.ValueIdx

noncomputable section

namespace Cert.KernelIdeal.HostValue

open Idealize.ShloMosaic Idealize.ShloMosaic.TcCoe Idealize.SL.Sem Idealize.ShloMosaic.ValueIdx Cert.KernelIdeal Cert.KernelIdeal.Gen

/-!
  The two arrays the region reads, each at an index.

  The packed words are transposed, split into their two lowest nibbles, the nibbles interleaved along a new middle
  axis and flattened, so that row `i` of the resulting code matrix holds, for every output row `o`, the code of input
  column `i`: the low nibble of word `p[o, i / 2]` when `i` is even, the nibble above it when `i` is odd. Converted,
  centred at 8, scaled by the row's scale and added to the transposed residual this is the dequantized weight
  transposed; the final change of format is the identity on extended reals. The activations are only flattened:
  row `r` of the flat array is row `r % 2048` of batch `r / 2048`.
-/

/-! ## The host operations before the region, stage by stage

Each stage is one operation of the program applied to the stages it reads; the packed words `p` have shape
[4096, 2048], the scales `s` shape [4096, 1], the residual `r` shape [4096, 4096]. -/

/-- The packed words transposed: [2048, 4096], entry (k, o) is `p[o, k]`. -/
private def pT (p : S4096x2048.Idx → BitVec 32) : S2048x4096.Idx → BitVec 32 :=
  transpose S2048x4096 [1, 0] p transposes_S4096x2048_S2048x4096_1_0
/-- The mask 15 everywhere. -/
private def m15 : S2048x4096.Idx → BitVec 32 :=
  broadcastInDim S2048x4096 ![] bcast_S_S2048x4096 (constantI S_ 32 15#32)
/-- The shift amount 4 everywhere. -/
private def k4 : S2048x4096.Idx → BitVec 32 :=
  broadcastInDim S2048x4096 ![] bcast_S_S2048x4096 (constantI S_ 32 4#32)
/-- The low nibbles. -/
private def lo (p : S4096x2048.Idx → BitVec 32) : S2048x4096.Idx → BitVec 32 := andi (pT p) m15
/-- The nibbles above them. -/
private def hi (p : S4096x2048.Idx → BitVec 32) : S2048x4096.Idx → BitVec 32 := andi (Host.shrsi (pT p) k4) m15
/-- The low nibbles with a unit middle axis. -/
private def lo3 (p : S4096x2048.Idx → BitVec 32) : S2048x1x4096.Idx → BitVec 32 :=
  broadcastInDim S2048x1x4096 ![0, 2] bcast_S2048x4096_S2048x1x4096_0_2 (lo p)
/-- The high nibbles with a unit middle axis. -/
private def hi3 (p : S4096x2048.Idx → BitVec 32) : S2048x1x4096.Idx → BitVec 32 :=
  broadcastInDim S2048x1x4096 ![0, 2] bcast_S2048x4096_S2048x1x4096_0_2 (hi p)
/-- Low and high nibbles interleaved along the middle axis: [2048, 2, 4096]. -/
private def cat (p : S4096x2048.Idx → BitVec 32) : S2048x2x4096.Idx → BitVec 32 :=
  concatenate S2048x2x4096 1 [⟨S2048x1x4096, lo3 p⟩, ⟨S2048x1x4096, hi3 p⟩] concatenates_S2048x1x4096_S2048x1x4096_S2048x2x4096_d1
/-- The codes as a [4096, 4096] matrix, row = input column. -/
private def codes (p : S4096x2048.Idx → BitVec 32) : S4096x4096.Idx → BitVec 32 :=
  shapeCast S4096x4096 (cat p) shapeCasts_S2048x2x4096_S4096x4096
/-- The constant 8 everywhere. -/
private def c8 : S4096x4096.Idx → Ideal .f32 :=
  broadcastInDim S4096x4096 ![] bcast_S_S4096x4096 (constant (F := Ideal) S_ .f32 0x41000000#32)
/-- The constant 1 everywhere. -/
private def c1 : S4096x4096.Idx → Ideal .f32 :=
  broadcastInDim S4096x4096 ![] bcast_S_S4096x4096 (constant (F := Ideal) S_ .f32 0x3F800000#32)
/-- The codes converted and centred: `code − 8`. -/
private def centred (p : S4096x2048.Idx → BitVec 32) : S4096x4096.Idx → Ideal .f32 :=
  subf (sitofp (F := Ideal) .f32 (codes p)) c8
/-- The scales as a row [1, 4096]. -/
private def sT (s : S4096x1.Idx → Ideal .f32) : S1x4096.Idx → Ideal .f32 :=
  transpose S1x4096 [1, 0] s transposes_S4096x1_S1x4096_1_0
/-- The scale row repeated down the rows: entry (i, o) is `s[o, 0]`. -/
private def sB (s : S4096x1.Idx → Ideal .f32) : S4096x4096.Idx → Ideal .f32 :=
  broadcastInDim S4096x4096 ![0, 1] bcast_S1x4096_S4096x4096_0_1 (sT s)
/-- The residual transposed. -/
private def rT (r : S4096x4096.Idx → Ideal .f32) : S4096x4096.Idx → Ideal .f32 :=
  transpose S4096x4096 [1, 0] r transposes_S4096x4096_S4096x4096_1_0
/-- The dequantized weight, transposed, in the narrower format. -/
private def wT (p : S4096x2048.Idx → BitVec 32) (s : S4096x1.Idx → Ideal .f32) (r : S4096x4096.Idx → Ideal .f32) :
    S4096x4096.Idx → Ideal .bf16 :=
  truncf (F := Ideal) .bf16 (addf (mulf (centred p) (sB s)) (mulf c1 (rT r))) bitsLt_bf16_f32

/-! ## Each stage read at an index -/

section Stages
variable (p : S4096x2048.Idx → BitVec 32) (s : S4096x1.Idx → Ideal .f32) (r : S4096x4096.Idx → Ideal .f32)

/-- The transposed words at (k, o) are the words at (o, k). -/
private theorem pT_apply (k : Fin 2048) (o : Fin 4096) : pT p (ix2 k o) = p (ix2 o k) := by
  unfold pT
  exact transpose_apply [1, 0] p transposes_S4096x2048_S2048x4096_1_0 (ix2 k o) (ix2 o k)
    (fun b => match b with | ⟨0, _⟩ => rfl | ⟨1, _⟩ => rfl)

/-- The mask is 15 at every index. -/
private theorem m15_apply (j : S2048x4096.Idx) : m15 j = 15#32 := by
  unfold m15
  exact broadcastInDim_apply _ bcast_S_S2048x4096 (constantI S_ 32 15#32) j (fun a => a.elim0) (fun a => a.elim0)

/-- The shift amount is 4 at every index. -/
private theorem k4_apply (j : S2048x4096.Idx) : k4 j = 4#32 := by
  unfold k4
  exact broadcastInDim_apply _ bcast_S_S2048x4096 (constantI S_ 32 4#32) j (fun a => a.elim0) (fun a => a.elim0)

/-- The low nibble at (k, o) is the low nibble of the word at (o, k). -/
private theorem lo_apply (k : Fin 2048) (o : Fin 4096) : lo p (ix2 k o) = IntOp.andi (p (ix2 o k)) 15#32 := by
  show IntOp.andi (pT p (ix2 k o)) (m15 (ix2 k o)) = _
  rw [pT_apply, m15_apply]

/-- The high nibble at (k, o) is the nibble above the lowest of the word at (o, k). -/
private theorem hi_apply (k : Fin 2048) (o : Fin 4096) :
    hi p (ix2 k o) = IntOp.andi (IntOp.shrsi .host (p (ix2 o k)) 4#32) 15#32 := by
  show IntOp.andi (IntOp.shrsi .host (pT p (ix2 k o)) (k4 (ix2 k o))) (m15 (ix2 k o)) = _
  rw [pT_apply, k4_apply, m15_apply]

/-- The unit middle axis reads through. -/
private theorem lo3_apply (k : Fin 2048) (z : Fin 1) (o : Fin 4096) : lo3 p (ix3 k z o) = lo p (ix2 k o) := by
  unfold lo3
  exact broadcastInDim_apply _ bcast_S2048x4096_S2048x1x4096_0_2 (lo p) (ix3 k z o) (ix2 k o) (fun a => match a with
    | ⟨0, _⟩ => by show k.val = if (2048 : Nat) = 1 then 0 else k.val; rw [if_neg (by decide)]
    | ⟨1, _⟩ => by show o.val = if (4096 : Nat) = 1 then 0 else o.val; rw [if_neg (by decide)])

/-- The unit middle axis reads through. -/
private theorem hi3_apply (k : Fin 2048) (z : Fin 1) (o : Fin 4096) : hi3 p (ix3 k z o) = hi p (ix2 k o) := by
  unfold hi3
  exact broadcastInDim_apply _ bcast_S2048x4096_S2048x1x4096_0_2 (hi p) (ix3 k z o) (ix2 k o) (fun a => match a with
    | ⟨0, _⟩ => by show k.val = if (2048 : Nat) = 1 then 0 else k.val; rw [if_neg (by decide)]
    | ⟨1, _⟩ => by show o.val = if (4096 : Nat) = 1 then 0 else o.val; rw [if_neg (by decide)])

/-- Position 0 of the middle axis holds the low nibbles. -/
private theorem cat_apply_even (k : Fin 2048) (e : Fin 2) (o : Fin 4096) (he : e.val = 0) :
    cat p (ix3 k e o) = lo p (ix2 k o) := by
  unfold cat
  rw [concatenate_pair_apply_left (1 : Fin S2048x2x4096.rank) (lo3 p) (hi3 p)
    concatenates_S2048x1x4096_S2048x1x4096_S2048x2x4096_d1 (ix3 k e o) rfl (ix3 k (0 : Fin 1) o)
    (fun b => match b with
      | ⟨0, _⟩ => rfl
      | ⟨1, _⟩ => by show (0 : Nat) = e.val; omega
      | ⟨2, _⟩ => rfl)]
  exact lo3_apply p k 0 o

/-- Position 1 of the middle axis holds the high nibbles. -/
private theorem cat_apply_odd (k : Fin 2048) (e : Fin 2) (o : Fin 4096) (he : e.val = 1) :
    cat p (ix3 k e o) = hi p (ix2 k o) := by
  unfold cat
  rw [concatenate_pair_apply_right (1 : Fin S2048x2x4096.rank) (lo3 p) (hi3 p)
    concatenates_S2048x1x4096_S2048x1x4096_S2048x2x4096_d1 (ix3 k e o) rfl rfl (ix3 k (0 : Fin 1) o)
    (fun b hb => match b, hb with
      | ⟨0, _⟩, _ => rfl
      | ⟨1, _⟩, hb => absurd (Fin.ext rfl) hb
      | ⟨2, _⟩, _ => rfl)
    (by show (0 : Nat) + 1 = e.val; omega)]
  exact hi3_apply p k 0 o

/-- Row `i` of the code matrix is row `i / 2`, position `i % 2`, of the interleaved array: both sit at row-major
    position `i · 4096 + o`. -/
private theorem codes_apply (i o : Fin 4096) :
    codes p (ix2 i o) = cat p (ix3 (Cert.Spec.half i) (⟨i.val % 2, Nat.mod_lt _ (by decide)⟩ : Fin 2) o) := by
  unfold codes
  exact shapeCast_apply (cat p) shapeCasts_S2048x2x4096_S4096x4096 (ix2 i o) _ (by
    rewrite [Shape.rowMajor_val_three, Shape.rowMajor_val_two]
    show (i.val / 2 * 2 + i.val % 2) * 4096 + o.val = i.val * 4096 + o.val
    omega)

/-- The constant 8 at every index. -/
private theorem c8_apply (j : S4096x4096.Idx) : c8 j = FloatOps.ofBits .f32 0x41000000#32 := by
  unfold c8
  exact broadcastInDim_apply _ bcast_S_S4096x4096 (constant (F := Ideal) S_ .f32 0x41000000#32) j (fun a => a.elim0) (fun a => a.elim0)

/-- The constant 1 at every index. -/
private theorem c1_apply (j : S4096x4096.Idx) : c1 j = FloatOps.ofBits .f32 0x3F800000#32 := by
  unfold c1
  exact broadcastInDim_apply _ bcast_S_S4096x4096 (constant (F := Ideal) S_ .f32 0x3F800000#32) j (fun a => a.elim0) (fun a => a.elim0)

/-- The centred code at an index. -/
private theorem centred_apply (j : S4096x4096.Idx) :
    centred p j = FloatOps.subf (FloatOps.sitofp .f32 (codes p j)) (FloatOps.ofBits .f32 0x41000000#32) := by
  show FloatOps.subf (FloatOps.sitofp .f32 (codes p j)) (c8 j) = _
  rw [c8_apply]

/-- The scale row at (0, o) is the scale of output row `o`. -/
private theorem sT_apply (z : Fin 1) (o : Fin 4096) : sT s (ix2 z o) = s (ix2 o z) := by
  unfold sT
  exact transpose_apply [1, 0] s transposes_S4096x1_S1x4096_1_0 (ix2 z o) (ix2 o z)
    (fun b => match b with | ⟨0, _⟩ => rfl | ⟨1, _⟩ => rfl)

/-- The repeated scale row at (i, o) is the scale of output row `o`. -/
private theorem sB_apply (i o : Fin 4096) : sB s (ix2 i o) = s (ix2 o 0) := by
  unfold sB
  rw [broadcastInDim_apply _ bcast_S1x4096_S4096x4096_0_1 (sT s) (ix2 i o) (ix2 (0 : Fin 1) o) (fun a => match a with
    | ⟨0, _⟩ => by show (0 : Nat) = if (1 : Nat) = 1 then 0 else i.val; rw [if_pos rfl]
    | ⟨1, _⟩ => by show o.val = if (4096 : Nat) = 1 then 0 else o.val; rw [if_neg (by decide)])]
  exact sT_apply s 0 o

/-- The transposed residual at (i, o) is the residual at (o, i). -/
private theorem rT_apply (i o : Fin 4096) : rT r (ix2 i o) = r (ix2 o i) := by
  unfold rT
  exact transpose_apply [1, 0] r transposes_S4096x4096_S4096x4096_1_0 (ix2 i o) (ix2 o i)
    (fun b => match b with | ⟨0, _⟩ => rfl | ⟨1, _⟩ => rfl)

/-- The transposed weight at (input column `i`, output row `o`) is the dequantized weight at (o, i); the change of
    format is the identity on extended reals. -/
private theorem wT_apply (i o : Fin 4096) : wT p s r (ix2 i o) = Cert.Spec.weight p s r o i := by
  show FloatOps.addf (FloatOps.mulf (centred p (ix2 i o)) (sB s (ix2 i o))) (FloatOps.mulf (c1 (ix2 i o)) (rT r (ix2 i o))) = _
  rw [centred_apply, sB_apply, c1_apply, rT_apply, codes_apply]
  unfold Cert.Spec.weight Cert.Spec.code
  by_cases h : i.val % 2 = 0
  · rw [if_pos h, cat_apply_even p _ _ _ h, lo_apply]
  · rw [if_neg h, cat_apply_odd p _ _ _ (by show i.val % 2 = 1; omega), hi_apply]

end Stages

/-! ## The two arrays the region reads -/

variable (m : (ℓ : Loc nD τ sig) → Buf (Elt Ideal) ℓ)

/-- The second window's array is the stages' composition over the launched arguments. -/
private theorem wt_term (c : Dev nD) :
    (V m c main_v21 : S4096x4096.Idx → Ideal .bf16)
      = wT (m ((c : Thread nD τ).loc main_arg1)) (m ((c : Thread nD τ).loc main_arg2)) (m ((c : Thread nD τ).loc main_arg3)) := by
  show StableHlo.after hostOps0 (fun b => m (c, b)) (Proc.devRef .tc main_v21) = _
  after_results_simp
  rfl

/-- The first window's array is the activations in row-major order at the flattened shape. -/
private theorem x2_term (c : Dev nD) :
    (V m c main_v22 : S8192x4096.Idx → Ideal .f32)
      = shapeCast S8192x4096 (m ((c : Thread nD τ).loc main_arg0) : S4x2048x4096.Idx → Ideal .f32) shapeCasts_S4x2048x4096_S8192x4096 := by
  show StableHlo.after hostOps0 (fun b => m (c, b)) (Proc.devRef .tc main_v22) = _
  after_results
  rfl

theorem wt_apply (c : Dev nD) (i o : Fin 4096) :
    (V m c main_v21 : S4096x4096.Idx → Ideal .bf16) (ix2 i o)
      = Cert.Spec.weight (m ((c : Thread nD τ).loc main_arg1)) (m ((c : Thread nD τ).loc main_arg2)) (m ((c : Thread nD τ).loc main_arg3)) o i := by
  refine (congrFun (wt_term m c) (ix2 i o)).trans ?_
  exact wT_apply _ _ _ i o

theorem x2_apply (c : Dev nD) (r : Fin 8192) (i : Fin 4096) :
    (V m c main_v22 : S8192x4096.Idx → Ideal .f32) (ix2 r i)
      = m ((c : Thread nD τ).loc main_arg0) (ix3 (⟨r.val / 2048, by have := r.isLt; omega⟩ : Fin 4) (⟨r.val % 2048, Nat.mod_lt _ (by decide)⟩ : Fin 2048) i) := by
  refine (congrFun (x2_term m c) (ix2 r i)).trans ?_
  exact shapeCast_apply _ shapeCasts_S4x2048x4096_S8192x4096 (ix2 r i) _ (by
    rewrite [Shape.rowMajor_val_three, Shape.rowMajor_val_two]
    show (r.val / 2048 * 2048 + r.val % 2048) * 4096 + i.val = r.val * 4096 + i.val
    omega)

end Cert.KernelIdeal.HostValue

end
-- ==== Proof.KernelRun.lean ====
/-
  The kernel's run, read: its result is the specified one.

  The product array at (r, o) is `Σ_k x2[r, k] · wT[k, o]`, where `x2` is the activations re-laid to [8192, 4096]
  (row `r` is (r / 2048, r % 2048)) and `wT[k, o]` is the dequantized weight at (output row o, input column k). Re-laid to
  [4, 2048, 4096], the entry (b, s, o) is the product array's at (2048 · b + s, o): the specified inner product.
-/
import proofs.«420758_j9543417331949_3_alg».proof.Proof.Output
import proofs.«420758_j9543417331949_3_alg».proof.Proof.HostValue
import proofs.«420758_j9543417331949_3_alg».proof.Proof.Spec

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.AccValue Cert.KernelIdeal.OutValue Idealize.ShloMosaic.ValueIdx

variable (m : (ℓ : Loc nD τ sig) → Buf (Elt Ideal) ℓ) (ρ : Dev nD → PrngReg)

/-- The specified result of the argument arrays as launched. -/
abbrev spec (c : Dev nD) : Buf (Elt Ideal) ((c : Thread nD τ).loc main_v24) :=
  Cert.Spec.result (m ((c : Thread nD τ).loc main_arg0)) (m ((c : Thread nD τ).loc main_arg1))
    (m ((c : Thread nD τ).loc main_arg2)) (m ((c : Thread nD τ).loc main_arg3))

/-- The product array re-laid to [4, 2048, 4096] is the specified result. -/
theorem relaid_eq (c : Dev nD) :
    shapeCast S4x2048x4096 (prodArr m c) shapeCasts_S8192x4096_S4x2048x4096 = spec m c := by
  funext j
  have h0 : (j 0).val < 4 := (j 0).isLt
  have h1 : (j 1).val < 2048 := (j 1).isLt
  have h2 : (j 2).val < 4096 := (j 2).isLt
  obtain ⟨r, hr⟩ : ∃ r : Fin 8192, r.val = 2048 * (j 0).val + (j 1).val := ⟨⟨2048 * (j 0).val + (j 1).val, by omega⟩, rfl⟩
  refine (shapeCast_apply (prodArr m c) shapeCasts_S8192x4096_S4x2048x4096 j (ix2 r (⟨(j 2).val, h2⟩ : Fin 4096)) ?_).trans ?_
  · rw [Shape.rowMajor_val_two, Shape.rowMajor_val_three]
    show r.val * 4096 + (j 2).val = ((j 0).val * 2048 + (j 1).val) * 4096 + (j 2).val
    omega
  · rw [prodArr_apply]
    show _ = Cert.Spec.result _ _ _ _ j
    unfold Cert.Spec.result
    refine Finset.sum_congr rfl fun k _ => ?_
    show xarr m c (ix2 r k) * warr m c (ix2 k (⟨(j 2).val, h2⟩ : Fin 4096)) = _
    refine congrArg₂ (· * ·) ((Cert.KernelIdeal.HostValue.x2_apply m c r k).trans (congrArg _ ?_))
      (Cert.KernelIdeal.HostValue.wt_apply m c k (⟨(j 2).val, h2⟩ : Fin 4096))
    funext a
    apply Fin.ext
    match a with
    | ⟨0, _⟩ => show r.val / 2048 = (j 0).val; omega
    | ⟨1, _⟩ => show r.val % 2048 = (j 1).val; omega
    | ⟨2, _⟩ => rfl

/-- Every weakly fair execution of the kernel's program ends with the specified result and the arguments unchanged. -/
theorem run : θ_run defs (onTc (τ := τ) (main (F := Ideal))) ⟨m, fun _ => 0, ρ⟩ fun r => ∀ c : Dev nD,
      r.2.mem ((c.tc : Thread nD τ).loc main_v24) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans ((tail_eq m c).trans (relaid_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.lean ====
/-
  The certificate: a 4-bit-packed-weight linear layer as a blocked matrix product, against its einsum reference.

  Both programs dequantize the packed weight the same way, entry by entry — `(code − 8) · scale[o] + 1 · residual[o, i]`,
  the code of input column `i` being the low nibble of the packed word `i / 2` for an even column and the nibble above it
  for an odd one — the kernel's program in the transposed layout [input column, output row], the reference in
  [output row, input column]. The reference then takes one inner product over the 4096 input columns; the kernel's
  grid walks 8 contraction blocks of 512 per output block, adding each partial product onto the block, which starts
  from zero. Over the extended reals addition is commutative and associative, so the eight stretches add up to the
  one sum (Proof/PartialSums.lean); no other law is needed, and the finiteness of the inputs is never used.

  Modules: Spec (the result, stated once), RefValue (the reference computes it), HostValue (the kernel's host
  operations build the transposed weight and the re-laid activations), Body (one grid point's store, entry by entry),
  Accum (the output block after each point, by induction on the point), Output (the blocks tile the product array; the
  reshape after the region), KernelRun (the kernel's run ends with the specified result).
-/
import proofs.«420758_j9543417331949_3_alg».proof.Defs
import proofs.«420758_j9543417331949_3_alg».proof.Proof.Gen.Kernel
import proofs.«420758_j9543417331949_3_alg».proof.Proof.Gen.Kernel.Skeleton
import proofs.«420758_j9543417331949_3_alg».proof.Proof.Gen.Kernel.Launch
import proofs.«420758_j9543417331949_3_alg».proof.Proof.Gen.Kernel.Points
import proofs.«420758_j9543417331949_3_alg».proof.Proof.Gen.Kernel.Frame
import proofs.«420758_j9543417331949_3_alg».proof.Proof.Gen.KernelIdeal
import proofs.«420758_j9543417331949_3_alg».proof.Proof.Gen.KernelIdeal.Skeleton
import proofs.«420758_j9543417331949_3_alg».proof.Proof.Gen.KernelIdeal.Launch
import proofs.«420758_j9543417331949_3_alg».proof.Proof.Gen.KernelIdeal.Points
import proofs.«420758_j9543417331949_3_alg».proof.Proof.Gen.KernelIdeal.Frame
import proofs.«420758_j9543417331949_3_alg».proof.Proof.Gen.ReferenceIdeal
import proofs.«420758_j9543417331949_3_alg».proof.Proof.Gen.ReferenceIdeal.Run
import proofs.«420758_j9543417331949_3_alg».proof.Proof.Gen.ReferenceIdeal.Read
import proofs.«420758_j9543417331949_3_alg».proof.Proof.Gen.Pre_finite_inputs
import proofs.«420758_j9543417331949_3_alg».proof.Proof.RefValue
import proofs.«420758_j9543417331949_3_alg».proof.Proof.KernelRun
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel :=
  fun m ρ _ => Cert.Kernel.Gen.frame m ρ

/-- The idealized kernel runs and keeps its arguments: the generated frame. -/
theorem frame_kernelIdeal : Cert.frame_KernelIdeal :=
  fun m ρ _ => Cert.KernelIdeal.Gen.frame m ρ

/-- The reference runs and keeps its arguments: its generated run, the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the specified result. -/
theorem algebraic : Cert.algebraic_KernelIdeal_ReferenceIdeal := by
  intro m ρ m' ρ' _ hagree
  refine ⟨fun c => Cert.KernelIdeal.RunValue.spec m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
